-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S384x128 .f32) (main_arg8 : FVec F S384 .f32) (main_arg9 : FVec F S384 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S384x128 .f32) (main_arg7 : FVec F S384x128 .f32) (main_arg8 : FVec F S384 .f32) (main_arg9 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg6
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x128 .f32) (main_arg1 : FVec F S8x2048x2048 .f32) (main_arg2 : FVec F S128x128 .f32) (main_arg3 : FVec F S128 .f32) (main_arg4 : FVec F S128x128 .f32) (main_arg5 : FVec F S128 .f32) (main_arg6 : FVec F S384x128 .f32) (main_arg7 : FVec F S384x128 .f32) (main_arg8 : FVec F S384 .f32) (main_arg9 : FVec F S384 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x384 : Shape := ⟨2, ![128, 384]⟩
abbrev S1x128 : Shape := ⟨2, ![1, 128]⟩
abbrev S1x384 : Shape := ⟨2, ![1, 384]⟩
abbrev S1x2048x128 : Shape := ⟨3, ![1, 2048, 128]⟩
abbrev S2048x128 : Shape := ⟨2, ![2048, 128]⟩
abbrev S1x512x2048 : Shape := ⟨3, ![1, 512, 2048]⟩
abbrev S1x512x128 : Shape := ⟨3, ![1, 512, 128]⟩
abbrev S512x2048 : Shape := ⟨2, ![512, 2048]⟩
abbrev S512x128 : Shape := ⟨2, ![512, 128]⟩
abbrev S512x384 : Shape := ⟨2, ![512, 384]⟩

abbrev nBuf : Space → Nat
  | .hbm => 20
  | .vmem => 20
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x128, .f32⟩
  | .hbm, ⟨11, _⟩ => ⟨S128x128, .f32⟩
  | .hbm, ⟨12, _⟩ => ⟨S128x384, .f32⟩
  | .hbm, ⟨13, _⟩ => ⟨S128x384, .f32⟩
  | .hbm, ⟨14, _⟩ => ⟨S1x128, .f32⟩
  | .hbm, ⟨15, _⟩ => ⟨S1x128, .f32⟩
  | .hbm, ⟨16, _⟩ => ⟨S1x384, .f32⟩
  | .hbm, ⟨17, _⟩ => ⟨S1x384, .f32⟩
  | .hbm, ⟨18, _⟩ => ⟨S8x2048x128, .bf16⟩
  | .hbm, ⟨19, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x2048x128, .bf16⟩
  | .local _ .vmem, ⟨7, _⟩ => ⟨S1x2048x128, .bf16⟩
  | .local _ .vmem, ⟨8, _⟩ => ⟨S1x512x2048, .f32⟩
  | .local _ .vmem, ⟨9, _⟩ => ⟨S1x512x2048, .f32⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .f32⟩
  | .local _ .vmem, ⟨13, _⟩ => ⟨S1x512x128, .f32⟩
  | .local _ .vmem, ⟨14, _⟩ => ⟨S128x384, .f32⟩
  | .local _ .vmem, ⟨15, _⟩ => ⟨S128x384, .f32⟩
  | .local _ .vmem, ⟨16, _⟩ => ⟨S1x384, .f32⟩
  | .local _ .vmem, ⟨17, _⟩ => ⟨S1x384, .f32⟩
  | .local _ .vmem, ⟨18, _⟩ => ⟨S1x512x128, .f32⟩
  | .local _ .vmem, ⟨19, _⟩ => ⟨S1x512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  transposes_S128x128_S128x128_1_0 : S128x128.Transposes [1, 0] S128x128
  transposes_S384x128_S128x384_1_0 : S384x128.Transposes [1, 0] S128x384
  shapeCasts_S128_S1x128 : S128.ShapeCasts S1x128
  shapeCasts_S384_S1x384 : S384.ShapeCasts S1x384
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  shapeCasts_S512x128_S1x512x128 : S512x128.ShapeCasts S1x512x128
  dot_S2048x128_S128x128_S2048x128_1_0_0_1_n_n_wf : DotDims.WF S2048x128 S128x128 S2048x128 [1] [0] [0] [1] [] []
  dot_S512x2048_S2048x128_S512x128_1_0_0_1_n_n_wf : DotDims.WF S512x2048 S2048x128 S512x128 [1] [0] [0] [1] [] []
  dot_S512x128_S128x384_S512x384_1_0_0_1_n_n_wf : DotDims.WF S512x128 S128x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x128.size a ≤ S8x2048x128.size a
  hwx0_5 : ∀ i : grid0.Coords, EltTy.bits .bf16 = 32 ∨ (Rect.block (s := S8x2048x128) S1x2048x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S8x2048x2048.size a
  hwx1_0 : ∀ i : grid1.Coords, EltTy.bits .f32 = 32 ∨ (Rect.block (s := S8x2048x2048) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .bf16 = 32 ∨ (Rect.block (s := S8x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x2048x128.size a
  hwx1_2 : ∀ i : grid1.Coords, EltTy.bits .f32 = 32 ∨ (Rect.block (s := S8x2048x128) S1x512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x128.size a ≤ S8x2048x128.size a
  hwx1_7 : ∀ i : grid1.Coords, EltTy.bits .f32 = 32 ∨ (Rect.block (s := S8x2048x128) S1x512x128.size (cc1_transform_7 i) (hinb1_7 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x1x128 : Shape := ⟨3, ![1, 1, 128]⟩
abbrev S_ : Shape := ⟨0, ![]⟩
abbrev S8x2048x384 : Shape := ⟨3, ![8, 2048, 384]⟩
abbrev S1x1x384 : Shape := ⟨3, ![1, 1, 384]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S8x2048x128, .f32⟩
  | .hbm, ⟨11, _⟩ => ⟨S1x1x128, .f32⟩
  | .hbm, ⟨12, _⟩ => ⟨S8x2048x128, .f32⟩
  | .hbm, ⟨13, _⟩ => ⟨S8x2048x128, .f32⟩
  | .hbm, ⟨14, _⟩ => ⟨S_, .f32⟩
  | .hbm, ⟨15, _⟩ => ⟨S8x2048x128, .f32⟩
  | .hbm, ⟨16, _⟩ => ⟨S8x2048x128, .f32⟩
  | .hbm, ⟨17, _⟩ => ⟨S8x2048x128, .f32⟩
  | .hbm, ⟨18, _⟩ => ⟨S1x1x128, .f32⟩
  | .hbm, ⟨19, _⟩ => ⟨S8x2048x128, .f32⟩
  | .hbm, ⟨20, _⟩ => ⟨S8x2048x128, .f32⟩
  | .hbm, ⟨21, _⟩ => ⟨S_, .f32⟩
  | .hbm, ⟨22, _⟩ => ⟨S8x2048x128, .f32⟩
  | .hbm, ⟨23, _⟩ => ⟨S8x2048x128, .f32⟩
  | .hbm, ⟨24, _⟩ => ⟨S8x2048x128, .f32⟩
  | .hbm, ⟨25, _⟩ => ⟨S_, .f32⟩
  | .hbm, ⟨26, _⟩ => ⟨S8x2048x128, .f32⟩
  | .hbm, ⟨27, _⟩ => ⟨S8x2048x128, .f32⟩
  | .hbm, ⟨28, _⟩ => ⟨S8x2048x384, .f32⟩
  | .hbm, ⟨29, _⟩ => ⟨S1x1x384, .f32⟩
  | .hbm, ⟨30, _⟩ => ⟨S8x2048x384, .f32⟩
  | .hbm, ⟨31, _⟩ => ⟨S8x2048x384, .f32⟩
  | .hbm, ⟨32, _⟩ => ⟨S8x2048x384, .f32⟩
  | .hbm, ⟨33, _⟩ => ⟨S1x1x384, .f32⟩
  | .hbm, ⟨34, _⟩ => ⟨S8x2048x384, .f32⟩
  | .hbm, ⟨35, _⟩ => ⟨S8x2048x384, .f32⟩
  | .hbm, ⟨36, _⟩ => ⟨S8x2048x128, .f32⟩
  | .hbm, ⟨37, _⟩ => ⟨S8x2048x128, .f32⟩
  | .hbm, ⟨38, _⟩ => ⟨S8x2048x128, .f32⟩
  | .hbm, ⟨39, _⟩ => ⟨S8x2048x128, .f32⟩
  | .hbm, ⟨40, _⟩ => ⟨S8x2048x128, .f32⟩
  | .hbm, ⟨41, _⟩ => ⟨S8x2048x128, .f32⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S_, .f32⟩
  | .hbm, ⟨46, _⟩ => ⟨S8x2048x128, .f32⟩
  | .hbm, ⟨47, _⟩ => ⟨S8x2048x128, .f32⟩
  | .hbm, ⟨48, _⟩ => ⟨S_, .f32⟩
  | .hbm, ⟨49, _⟩ => ⟨S8x2048x128, .f32⟩
  | .hbm, ⟨50, _⟩ => ⟨S8x2048x128, .f32⟩
  | .hbm, ⟨51, _⟩ => ⟨S8x2048x128, .f32⟩
  | .hbm, ⟨52, _⟩ => ⟨S8x2048x128, .f32⟩
  | .hbm, ⟨53, _⟩ => ⟨S8x2048x128, .f32⟩
  | .hbm, ⟨54, _⟩ => ⟨S_, .f32⟩
  | .hbm, ⟨55, _⟩ => ⟨S8x2048x128, .f32⟩
  | .hbm, ⟨56, _⟩ => ⟨S8x2048x128, .f32⟩
  | .hbm, ⟨57, _⟩ => ⟨S_, .f32⟩
  | .hbm, ⟨58, _⟩ => ⟨S8x2048x128, .f32⟩
  | .hbm, ⟨59, _⟩ => ⟨S8x2048x128, .f32⟩
  | .hbm, ⟨60, _⟩ => ⟨S8x2048x128, .f32⟩
  | .hbm, ⟨61, _⟩ => ⟨S8x2048x128, .f32⟩
  | .hbm, ⟨62, _⟩ => ⟨S8x2048x128, .f32⟩
  | .hbm, ⟨63, _⟩ => ⟨S_, .f32⟩
  | .hbm, ⟨64, _⟩ => ⟨S8x2048x128, .f32⟩
  | .hbm, ⟨65, _⟩ => ⟨S8x2048x128, .f32⟩
  | .hbm, ⟨66, _⟩ => ⟨S8x2048x128, .f32⟩
  | .hbm, ⟨67, _⟩ => ⟨S8x2048x128, .f32⟩
  | .hbm, ⟨68, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_call2_cst : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_1 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x128 : S_.BroadcastsInDim S8x2048x128 (![] : Fin 0 → Fin S8x2048x128.rank)
  bcast_S384_S1x1x384_2 : S384.BroadcastsInDim S1x1x384 (![2] : Fin 1 → Fin S1x1x384.rank)
  bcast_S1x1x384_S8x2048x384_0_1_2 : S1x1x384.BroadcastsInDim S8x2048x384 (![0, 1, 2] : Fin 3 → Fin S8x2048x384.rank)
  slices_S8x2048x384_S8x2048x128_0_0_0 : S8x2048x384.Slices ![0, 0, 0] S8x2048x128
  slices_S8x2048x384_S8x2048x128_0_0_128 : S8x2048x384.Slices ![0, 0, 128] S8x2048x128
  slices_S8x2048x384_S8x2048x128_0_0_256 : S8x2048x384.Slices ![0, 0, 256] S8x2048x128
  dot_S8x2048x128_S128x128_S8x2048x128_2_1_01_0_n_n_wf : DotDims.WF S8x2048x128 S128x128 S8x2048x128 [2] [1] [0, 1] [0] [] []
  dot_S8x2048x2048_S8x2048x128_S8x2048x128_2_1_1_2_0_0_wf : DotDims.WF S8x2048x2048 S8x2048x128 S8x2048x128 [2] [1] [1] [2] [0] [0]
  dot_S8x2048x128_S384x128_S8x2048x384_2_1_01_0_n_n_wf : DotDims.WF S8x2048x128 S384x128 S8x2048x384 [2] [1] [0, 1] [0] [] []

variable [Facts₀]

def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S384x128_S8x2048x384_2_1_01_0_n_n : DotDims S8x2048x128 S384x128 S8x2048x384 where
  lhsContracting := [2]
  rhsContracting := [1]
  lhsNonContracting := [0, 1]
  rhsNonContracting := [0]
  lhsBatch := []
  rhsBatch := []
  wf := dot_S8x2048x128_S384x128_S8x2048x384_2_1_01_0_n_n_wf

class Facts : Prop extends Facts₀ where

variable [Facts]
-- ==== Proof.Spec.lean ====
/-
  One message-passing layer with a gated recurrent update, entry by entry, on the extended reals.

  For node states h[b,n,·] (8 graphs of 2048 nodes, 128 features) and dense adjacency a[b,n,·]:
    m   = relu (relu (h · W1ᵀ + c1) · W2ᵀ + c2)            the message network, two dense layers
    s   = relu (Σ_k a[b,n,k] · m[b,k,·])                     aggregation over every node of the graph
    gx  = s · Wiᵀ + ci,   gh = h · Whᵀ + ch                  384 = 3 · 128 gate pre-activations, columns r | z | n
    r   = σ (gx_r + gh_r),  z = σ (gx_z + gh_z),  ñ = tanh (gx_n + r · gh_n)
    out = (1 − z) · ñ + z · h
  A weight is given by its entries `w o k` (output o, input k), whichever way an array stores it, so that a stored
  transpose read at (k, o) and the matrix itself read at (o, k) give the same function. Every sum is a finite sum in the
  additive monoid of the extended reals, so no order or grouping of its terms matters and no finiteness is used.
  σ is the logistic function 1 / (1 + e⁻ˣ) with the quotient's and the exponential's conventions at the infinities; a
  program that spells it as that quotient over the word for 1.0 computes the same function (`logistic_spelled`).
-/
import Idealize.ShloMosaic.PureOps.Ideal
import Idealize.ShloMosaic.Lib.IdealHost
import Idealize.ShloMosaic.Lib.ValueIdx

noncomputable section

open scoped BigOperators

namespace Cert.GruLayer

open Idealize.ShloMosaic Idealize.ShloMosaic.ValueIdx

/-! ## Arrays as functions of their coordinates -/

/-- A rank-3 array read by its three coordinates. -/
def arr3 {a b c : Nat} (x : (⟨3, ![a, b, c]⟩ : Shape).Idx → EReal) : Fin a → Fin b → Fin c → EReal :=
  fun p q r => x (ix3 p q r)

/-- A stored [O, K] matrix: entry (o, k). -/
def mat {a b : Nat} (x : (⟨2, ![a, b]⟩ : Shape).Idx → EReal) : Fin a → Fin b → EReal := fun o k => x (ix2 o k)

/-- A stored [K, O] matrix read transposed: entry (o, k) is the stored (k, o). -/
def matT {a b : Nat} (x : (⟨2, ![a, b]⟩ : Shape).Idx → EReal) : Fin b → Fin a → EReal := fun o k => x (ix2 k o)

/-- A vector [n]. -/
def vec {a : Nat} (x : (⟨1, ![a]⟩ : Shape).Idx → EReal) : Fin a → EReal := fun o => x (ix1 o)

/-- A one-row matrix [1, n] read as its row. -/
def row {a : Nat} (x : (⟨2, ![1, a]⟩ : Shape).Idx → EReal) : Fin a → EReal := fun o => x (ix2 (0 : Fin 1) o)

/-- A function of three coordinates as a rank-3 array. -/
def ofFun3 {a b c : Nat} (f : Fin a → Fin b → Fin c → EReal) : (⟨3, ![a, b, c]⟩ : Shape).Idx → EReal :=
  fun i => f (i 0) (i 1) (i 2)

theorem arr3_ofFun3 {a b c : Nat} (f : Fin a → Fin b → Fin c → EReal) : arr3 (ofFun3 f) = f := rfl

/-! ## The layer -/

/-- max (x, 0), the zero being the f32 word both programs print. -/
def relu (x : EReal) : EReal := max x (Ideal.ofBits .f32 0x00000000#32)

/-- Output `o` of a dense layer on the row `x`: Σ_k x k · w o k + c o. -/
def dense {K O : Nat} (x : Fin K → EReal) (w : Fin O → Fin K → EReal) (c : Fin O → EReal) (o : Fin O) : EReal :=
  (∑ k : Fin K, x k * w o k) + c o

/-- The message network on one node's state row: two dense layers, each followed by relu. -/
def mlpRow (x : Fin 128 → EReal) (w1 : Fin 128 → Fin 128 → EReal) (c1 : Fin 128 → EReal)
    (w2 : Fin 128 → Fin 128 → EReal) (c2 : Fin 128 → EReal) (o : Fin 128) : EReal :=
  relu (dense (fun k => relu (dense x w1 c1 k)) w2 c2 o)

/-- The message network on every node's state. -/
def mlp (h : Fin 8 → Fin 2048 → Fin 128 → EReal) (w1 : Fin 128 → Fin 128 → EReal) (c1 : Fin 128 → EReal)
    (w2 : Fin 128 → Fin 128 → EReal) (c2 : Fin 128 → EReal) : Fin 8 → Fin 2048 → Fin 128 → EReal :=
  fun b n o => mlpRow (h b n) w1 c1 w2 c2 o

/-- One node's aggregate: the messages of all 2048 nodes of its graph, weighted by its adjacency row, then relu. -/
def aggRow (arow : Fin 2048 → EReal) (mm : Fin 2048 → Fin 128 → EReal) (j : Fin 128) : EReal :=
  relu (∑ k : Fin 2048, arow k * mm k j)

/-- Aggregation on every node. -/
def agg (a : Fin 8 → Fin 2048 → Fin 2048 → EReal) (mm : Fin 8 → Fin 2048 → Fin 128 → EReal) :
    Fin 8 → Fin 2048 → Fin 128 → EReal :=
  fun b n j => aggRow (a b n) (mm b) j

/-- Column `off + j` of the 384 gate columns (off = 0 for r, 128 for z, 256 for n). -/
def col (off : Nat) (hoff : off + 128 ≤ 384) (j : Fin 128) : Fin 384 := ⟨off + j.val, by have := j.isLt; omega⟩

/-- The gated recurrent update of one node: input row `x`, state row `h`, feature `j`. -/
def gruCell (x h : Fin 128 → EReal) (wi : Fin 384 → Fin 128 → EReal) (ci : Fin 384 → EReal)
    (wh : Fin 384 → Fin 128 → EReal) (ch : Fin 384 → EReal) (j : Fin 128) : EReal :=
  (Ideal.ofBits .f32 0x3F800000#32
      - Ideal.logistic (dense x wi ci (col 128 (by omega) j) + dense h wh ch (col 128 (by omega) j)))
    * Ideal.tanh (dense x wi ci (col 256 (by omega) j)
        + Ideal.logistic (dense x wi ci (col 0 (by omega) j) + dense h wh ch (col 0 (by omega) j))
          * dense h wh ch (col 256 (by omega) j))
  + Ideal.logistic (dense x wi ci (col 128 (by omega) j) + dense h wh ch (col 128 (by omega) j)) * h j

/-- The gated recurrent update of every node's state `h` by its input `x`. -/
def gru (x h : Fin 8 → Fin 2048 → Fin 128 → EReal) (wi : Fin 384 → Fin 128 → EReal) (ci : Fin 384 → EReal)
    (wh : Fin 384 → Fin 128 → EReal) (ch : Fin 384 → EReal) : Fin 8 → Fin 2048 → Fin 128 → EReal :=
  fun b n j => gruCell (x b n) (h b n) wi ci wh ch j

/-- The whole layer. -/
def layer (h : Fin 8 → Fin 2048 → Fin 128 → EReal) (a : Fin 8 → Fin 2048 → Fin 2048 → EReal)
    (w1 : Fin 128 → Fin 128 → EReal) (c1 : Fin 128 → EReal) (w2 : Fin 128 → Fin 128 → EReal) (c2 : Fin 128 → EReal)
    (wi : Fin 384 → Fin 128 → EReal) (ci : Fin 384 → EReal) (wh : Fin 384 → Fin 128 → EReal) (ch : Fin 384 → EReal) :
    Fin 8 → Fin 2048 → Fin 128 → EReal :=
  gru (agg a (mlp h w1 c1 w2 c2)) h wi ci wh ch

/-- The logistic function spelled as a quotient over the word for 1.0 is the logistic function, at every extended real. -/
theorem logistic_spelled (x : EReal) :
    Ideal.div (Ideal.ofBits .f32 0x3F800000#32) (Ideal.ofBits .f32 0x3F800000#32 + Ideal.exp (-x)) = Ideal.logistic x := by
  rw [Ideal.ofBits_one_f32]
  rfl

end Cert.GruLayer

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.HostIn.lean ====
/-
  The arrays the two launches find, in terms of the launch memory.

  Before the first launch the program transposes the four weight matrices (W1, W2 : [128,128]; Wi, Wh : [384,128] to
  [128,384]) and lays the four bias vectors out as one-row matrices. A stored transpose read at (k, o) is the matrix at
  (o, k), and row 0 of a one-row layout is the vector, so in the layer's coordinates each of the eight buffers is the
  argument it was made from. No host operation and no launch writes an argument, and the second launch finds the first
  launch's output array as that launch left it.
-/
import proofs.«112451_j66872640798743_1_alg».proof.Proof.Gen.KernelIdeal.Frame
import proofs.«112451_j66872640798743_1_alg».proof.Proof.Spec
import proofs.«112451_j66872640798743_1_alg».proof.Proof.LibRowBias
import Idealize.ShloMosaic.Lib.StableHlo.Run
import Idealize.ShloMosaic.Lib.ValueLayout

set_option maxRecDepth 16384

noncomputable section

open scoped BigOperators

namespace Cert.KernelIdeal.HostIn

open Cert.KernelIdeal Cert.KernelIdeal.Gen Cert.GruLayer
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What the host stretch leaves in each buffer the launches read -/

theorem W1_v0 (c : Dev nD) : W1 m ρ c (Proc.devRef .tc main_v0)
    = transpose S128x128 [1, 0] (m ((c : Thread nD τ).loc main_arg2)) transposes_S128x128_S128x128_1_0 := by
  show StableHlo.after hostOps0 (W0 m ρ c) (Proc.devRef .tc main_v0) = _
  after_results
theorem W1_v1 (c : Dev nD) : W1 m ρ c (Proc.devRef .tc main_v1)
    = transpose S128x128 [1, 0] (m ((c : Thread nD τ).loc main_arg4)) transposes_S128x128_S128x128_1_0 := by
  show StableHlo.after hostOps0 (W0 m ρ c) (Proc.devRef .tc main_v1) = _
  after_results
theorem W1_v2 (c : Dev nD) : W1 m ρ c (Proc.devRef .tc main_v2)
    = transpose S128x384 [1, 0] (m ((c : Thread nD τ).loc main_arg6)) transposes_S384x128_S128x384_1_0 := by
  show StableHlo.after hostOps0 (W0 m ρ c) (Proc.devRef .tc main_v2) = _
  after_results
theorem W1_v3 (c : Dev nD) : W1 m ρ c (Proc.devRef .tc main_v3)
    = transpose S128x384 [1, 0] (m ((c : Thread nD τ).loc main_arg7)) transposes_S384x128_S128x384_1_0 := by
  show StableHlo.after hostOps0 (W0 m ρ c) (Proc.devRef .tc main_v3) = _
  after_results
theorem W1_v4 (c : Dev nD) : W1 m ρ c (Proc.devRef .tc main_v4)
    = shapeCast S1x128 (m ((c : Thread nD τ).loc main_arg3)) shapeCasts_S128_S1x128 := by
  show StableHlo.after hostOps0 (W0 m ρ c) (Proc.devRef .tc main_v4) = _
  after_results
  rfl
theorem W1_v5 (c : Dev nD) : W1 m ρ c (Proc.devRef .tc main_v5)
    = shapeCast S1x128 (m ((c : Thread nD τ).loc main_arg5)) shapeCasts_S128_S1x128 := by
  show StableHlo.after hostOps0 (W0 m ρ c) (Proc.devRef .tc main_v5) = _
  after_results
  rfl
theorem W1_v6 (c : Dev nD) : W1 m ρ c (Proc.devRef .tc main_v6)
    = shapeCast S1x384 (m ((c : Thread nD τ).loc main_arg8)) shapeCasts_S384_S1x384 := by
  show StableHlo.after hostOps0 (W0 m ρ c) (Proc.devRef .tc main_v6) = _
  after_results
  rfl
theorem W1_v7 (c : Dev nD) : W1 m ρ c (Proc.devRef .tc main_v7)
    = shapeCast S1x384 (m ((c : Thread nD τ).loc main_arg9)) shapeCasts_S384_S1x384 := by
  show StableHlo.after hostOps0 (W0 m ρ c) (Proc.devRef .tc main_v7) = _
  after_results
  rfl
/-- The stretch writes no argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results

/-! ## The same in the layer's coordinates: a stored transpose is the weight, a one-row layout the bias -/

theorem matT_transpose {a b : Nat} (x : (⟨2, ![a, b]⟩ : Shape).Idx → EReal)
    (h : (⟨2, ![a, b]⟩ : Shape).Transposes [1, 0] ⟨2, ![b, a]⟩) : matT (transpose ⟨2, ![b, a]⟩ [1, 0] x h) = mat x := by
  funext o k
  exact transpose_ix2_apply x h k o

theorem row_ofVec {n : Nat} (x : (⟨1, ![n]⟩ : Shape).Idx → EReal) (h : (⟨1, ![n]⟩ : Shape).ShapeCasts ⟨2, ![1, n]⟩) :
    row (shapeCast ⟨2, ![1, n]⟩ x h) = vec x := by
  funext o
  exact Cert.RowBias.ofVec_apply x h o

/-! ## The first launch's entry arrays -/

theorem V1_w1 (c : Dev nD) : matT (V1 m ρ c main_v0 : S128x128.Idx → EReal) = mat (m ((c : Thread nD τ).loc main_arg2)) :=
  (congrArg matT (W1_v0 m ρ c)).trans (matT_transpose _ _)
theorem V1_w2 (c : Dev nD) : matT (V1 m ρ c main_v1 : S128x128.Idx → EReal) = mat (m ((c : Thread nD τ).loc main_arg4)) :=
  (congrArg matT (W1_v1 m ρ c)).trans (matT_transpose _ _)
theorem V1_c1 (c : Dev nD) : row (V1 m ρ c main_v4 : S1x128.Idx → EReal) = vec (m ((c : Thread nD τ).loc main_arg3)) :=
  (congrArg row (W1_v4 m ρ c)).trans (row_ofVec _ _)
theorem V1_c2 (c : Dev nD) : row (V1 m ρ c main_v5 : S1x128.Idx → EReal) = vec (m ((c : Thread nD τ).loc main_arg5)) :=
  (congrArg row (W1_v5 m ρ c)).trans (row_ofVec _ _)
theorem V1_h (c : Dev nD) : (V1 m ρ c main_arg0 : S8x2048x128.Idx → EReal) = m ((c : Thread nD τ).loc main_arg0) :=
  W1_arg0 m ρ c

/-! ## The second launch's entry arrays: what the first launch left, the rest as the host stretch left it -/

theorem V2_a (c : Dev nD) : (V2 m ρ c main_arg1 : S8x2048x2048.Idx → EReal) = m ((c : Thread nD τ).loc main_arg1) :=
  (W2_of_ne m ρ c main_arg1 (by decide)).trans (W1_arg1 m ρ c)
theorem V2_h (c : Dev nD) : (V2 m ρ c main_arg0 : S8x2048x128.Idx → EReal) = m ((c : Thread nD τ).loc main_arg0) :=
  ((W2_arr m ρ c 0).trans (((dat0 (V1 m ρ) c).arrAt_in 0 rfl _).trans (A_eq0 (V1 m ρ) c 0))).trans (W1_arg0 m ρ c)
theorem V2_m (c : Dev nD) : V2 m ρ c main_v8 = (dat0 (V1 m ρ) c).arrAt 5 cfg0.N := W2_arr m ρ c 5
theorem V2_wi (c : Dev nD) : matT (V2 m ρ c main_v2 : S128x384.Idx → EReal) = mat (m ((c : Thread nD τ).loc main_arg6)) :=
  (congrArg matT ((W2_of_ne m ρ c main_v2 (by decide)).trans (W1_v2 m ρ c))).trans (matT_transpose _ _)
theorem V2_wh (c : Dev nD) : matT (V2 m ρ c main_v3 : S128x384.Idx → EReal) = mat (m ((c : Thread nD τ).loc main_arg7)) :=
  (congrArg matT ((W2_of_ne m ρ c main_v3 (by decide)).trans (W1_v3 m ρ c))).trans (matT_transpose _ _)
theorem V2_ci (c : Dev nD) : row (V2 m ρ c main_v6 : S1x384.Idx → EReal) = vec (m ((c : Thread nD τ).loc main_arg8)) :=
  (congrArg row ((W2_of_ne m ρ c main_v6 (by decide)).trans (W1_v6 m ρ c))).trans (row_ofVec _ _)
theorem V2_ch (c : Dev nD) : row (V2 m ρ c main_v7 : S1x384.Idx → EReal) = vec (m ((c : Thread nD τ).loc main_arg9)) :=
  (congrArg row ((W2_of_ne m ρ c main_v7 (by decide)).trans (W1_v7 m ρ c))).trans (row_ofVec _ _)

end Cert.KernelIdeal.HostIn

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.Pay0.lean ====
/-
  The message network's body at one entry of its output block.

  The body holds a whole [1,2048,128] block of node states x, the stored weights W1, W2 : [128(in),128(out)] and the bias
  rows c1, c2 : [1,128]. Dropping the unit axis, narrowing to bf16 (the identity on the extended reals) and the product
  into a zero accumulator give, at row n and column o, Σ_k x[n,k] · W1[k,o]; the bias row is added to every row; relu;
  the same again with W2, c2. So entry (0, n, o) of what the body stores is the message network of row n, with each
  weight read transposed (output o, input k ↦ stored (k, o)) and each bias its row.
-/
import proofs.«112451_j66872640798743_1_alg».proof.Proof.Gen.KernelIdeal.Frame
import proofs.«112451_j66872640798743_1_alg».proof.Proof.Spec
import proofs.«112451_j66872640798743_1_alg».proof.Proof.LibPlainDot
import proofs.«112451_j66872640798743_1_alg».proof.Proof.LibRowBias

set_option maxRecDepth 16384

noncomputable section

open scoped BigOperators

namespace Cert.KernelIdeal.Mlp

open Cert.KernelIdeal Cert.KernelIdeal.Gen Cert.GruLayer
open Idealize.ShloMosaic Idealize.ShloMosaic.TcCoe Idealize.ShloMosaic.ValueIdx Idealize.SL.Sem

/-- One dense layer of the body followed by relu, at (n, o): the rows X of the left operand against the stored weight W
read transposed, plus the bias row c, clamped below at zero. -/
theorem layer_apply (X : FVec Ideal S2048x128 .bf16) (W : Vec Ideal S128x128 .f32) (c : Vec Ideal S1x128 .f32)
    (n : Fin 2048) (o : Fin 128) :
    maximumf
        (addf
          (matmul dot_S2048x128_S128x128_S2048x128_1_0_0_1_n_n none X
            (truncf .bf16 (shapeCast S128x128 W shapeCasts_S128x128_S128x128) bitsLt_bf16_f32)
            (constant S2048x128 .f32 0x00000000#32))
          (broadcastTo S2048x128 (shapeCast S1x128 c shapeCasts_S1x128_S1x128) broadcasts_S1x128_S2048x128))
        (broadcast S2048x128 (Scalar.ofBits (F := Ideal) .f32 0x00000000#32)) (ix2 n o)
      = relu (dense (fun k => X (ix2 n k)) (matT W) (row c) o) := by
  -- pointwise operations read at the index; a cast to the same shape is the identity
  rw [maximumf_apply, addf_apply, broadcast_apply, shapeCast_self, shapeCast_self]
  unfold relu dense
  refine congrArg₂ max (congrArg₂ (· + ·) ?_ ?_) rfl
  · -- the product into the zero accumulator: Σ_k X[n,k] · W[k,o], the narrowing of W being the identity
    exact (Cert.PlainDot.matmul_zero_apply (M := 2048) (K := 128) (N := 128) none X
      (truncf .bf16 W bitsLt_bf16_f32) n o).trans (Finset.sum_congr rfl fun k _ => rfl)
  · -- the bias row under every row
    exact Cert.RowBias.rows_apply c broadcasts_S1x128_S2048x128 n o

/-- Entry (0, n, o) of the block the body leaves, from the blocks it loads. -/
theorem out0_5_apply (x0 : Vec Ideal S1x2048x128 .f32) (x1 : Vec Ideal S128x128 .f32) (x2 : Vec Ideal S1x128 .f32)
    (x3 : Vec Ideal S128x128 .f32) (x4 : Vec Ideal S1x128 .f32) (n : Fin 2048) (o : Fin 128) :
    out0_5 (F := Ideal) x0 x1 x2 x3 x4 (ix3 (0 : Fin 1) n o)
      = mlpRow (fun k => x0 (ix3 (0 : Fin 1) n k)) (matT x1) (row x2) (matT x3) (row x4) o := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_5
  rw [View.canon_unit_zero hz3]
  simp only [View.ld_unit_zero (S := S1x2048x128) hz3, View.ld_unit_zero (S := S128x128) hz2,
    View.ld_unit_zero (S := S1x128) hz2]
  unfold k0_pay1
  -- the unit axis put back in front: entry (0, n, o) is the matrix's entry (n, o); the narrowing is the identity
  refine (shapeCast_ab_1ab_apply _ shapeCasts_S2048x128_S1x2048x128 (0 : Fin 1) n o).trans ?_
  -- the second layer over the rows the first layer leaves
  refine (layer_apply _ x3 x4 n o).trans ?_
  unfold mlpRow
  refine congrArg (fun f => relu (dense f (matT x3) (row x4) o)) (funext fun k => ?_)
  -- the first layer over the rows of the loaded block with its unit axis dropped
  refine (layer_apply _ x1 x2 n k).trans ?_
  refine congrArg (fun f => relu (dense f (matT x1) (row x2) k)) (funext fun j => ?_)
  exact shapeCast_1ab_ab_apply x0 shapeCasts_S1x2048x128_S2048x128 n j

end Cert.KernelIdeal.Mlp

end
-- ==== Proof.Region0.lean ====
/-
  What the message network's launch leaves in its output array.

  The launch runs the body once per graph b (8 grid points); at point b the body reads the whole [2048,128] block of
  node states of graph b, the two stored weight matrices [128(in),128(out)] and the two bias rows [1,128], and stores
  relu (relu (x · W1 + c1) · W2 + c2) as the block of graph b of the output. Each point writes back its block, the eight
  blocks tile the [8,2048,128] array, so the array ends holding the message network of the entry arrays, entry by entry.
-/
import proofs.«112451_j66872640798743_1_alg».proof.Proof.Gen.KernelIdeal.Frame
import proofs.«112451_j66872640798743_1_alg».proof.Proof.Spec
import proofs.«112451_j66872640798743_1_alg».proof.Proof.Pay0
import Idealize.ShloMosaic.Lib.Pipeline.Value

set_option maxRecDepth 16384

noncomputable section

open scoped BigOperators

namespace Cert.KernelIdeal.Mlp

open Cert.KernelIdeal Cert.KernelIdeal.Gen Cert.GruLayer
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arrays the region finds, and the array it leaves -/

/-- The node states [8,2048,128], -/
abbrev states (c : Dev nD) : Vec Ideal S8x2048x128 .f32 := V c main_arg0
/-- the first layer's stored weights [128(in),128(out)] and bias row [1,128], -/
abbrev weight1 (c : Dev nD) : Vec Ideal S128x128 .f32 := V c main_v0
abbrev bias1 (c : Dev nD) : Vec Ideal S1x128 .f32 := V c main_v4
/-- the second layer's. -/
abbrev weight2 (c : Dev nD) : Vec Ideal S128x128 .f32 := V c main_v1
abbrev bias2 (c : Dev nD) : Vec Ideal S1x128 .f32 := V c main_v5

/-- The message network of those arrays, as an [8,2048,128] array. -/
abbrev messages (c : Dev nD) : S8x2048x128.Idx → EReal :=
  ofFun3 (mlp (arr3 (states V c)) (matT (weight1 V c)) (row (bias1 V c)) (matT (weight2 V c)) (row (bias2 V c)))

/-! ## The grid: point t is graph t -/

/-- The graph a grid point works on. -/
def graphOf (t : Fin cfg0.N) : Fin 8 := ⟨t.val, lt_of_lt_of_eq t.isLt N_0⟩

/-- The printed index maps, decided over the grid: the state window and the output window are at block (t, 0, 0), the
    weight and bias windows at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The body at an entry of its block -/

/-- A [1,2048,128] index is (0, its row, its column). -/
theorem unit_ix3 (y : S1x2048x128.Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- What the body stores at entry y of its block: the message network of row (y 1) of the state block, at column (y 2). -/
theorem body_at (x0 : Vec Ideal S1x2048x128 .f32) (x1 : Vec Ideal S128x128 .f32) (x2 : Vec Ideal S1x128 .f32)
    (x3 : Vec Ideal S128x128 .f32) (x4 : Vec Ideal S1x128 .f32) (y : S1x2048x128.Idx) :
    out0_5 (F := Ideal) x0 x1 x2 x3 x4 y
      = mlpRow (fun k => x0 (ix3 (0 : Fin 1) (y 1) k)) (matT x1) (row x2) (matT x3) (row x4) (y 2) :=
  (congrArg (out0_5 (F := Ideal) x0 x1 x2 x3 x4) (unit_ix3 y)).trans (out0_5_apply x0 x1 x2 x3 x4 (y 1) (y 2))

/-! ## The blocks a point loads -/

/-- The state block at point t is graph t of the state array. -/
theorem stateBlock_at (c : Dev nD) (t : Fin cfg0.N) (n : Fin 2048) (k : Fin 128) :
    (iblk0 (F := Ideal) V c 0 t : Vec Ideal S1x2048x128 .f32) (ix3 (0 : Fin 1) n k) = states V c (ix3 (graphOf t) n k) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 128 + 1 * k.val = k.val; omega

/-- The first weight block at every point is the whole stored matrix. -/
theorem weight1Block_eq (c : Dev nD) (t : Fin cfg0.N) :
    (iblk0 (F := Ideal) V c 1 t : Vec Ideal S128x128 .f32) = weight1 V c := by
  obtain ⟨-, -, -, e0, e1, -⟩ := idx_facts t
  funext y
  unfold iblk0
  rw [View.read_apply]
  show V c main_v0 _ = V c main_v0 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias block at every point is the whole bias row. -/
theorem bias1Block_eq (c : Dev nD) (t : Fin cfg0.N) :
    (iblk0 (F := Ideal) V c 2 t : Vec Ideal S1x128 .f32) = bias1 V c := by
  obtain ⟨-, -, -, -, -, e0, e1, -⟩ := idx_facts t
  funext y
  unfold iblk0
  rw [View.read_apply]
  show V c main_v4 _ = V c main_v4 _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight block at every point is the whole stored matrix. -/
theorem weight2Block_eq (c : Dev nD) (t : Fin cfg0.N) :
    (iblk0 (F := Ideal) V c 3 t : Vec Ideal S128x128 .f32) = weight2 V c := by
  obtain ⟨-, -, -, -, -, -, -, e0, e1, -⟩ := idx_facts t
  funext y
  unfold iblk0
  rw [View.read_apply]
  show V c main_v1 _ = V c main_v1 _
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias block at every point is the whole bias row. -/
theorem bias2Block_eq (c : Dev nD) (t : Fin cfg0.N) :
    (iblk0 (F := Ideal) V c 4 t : Vec Ideal S1x128 .f32) = bias2 V c := by
  obtain ⟨-, -, -, -, -, -, -, -, -, e0, e1, -⟩ := idx_facts t
  funext y
  unfold iblk0
  rw [View.read_apply]
  show V c main_v5 _ = V c main_v5 _
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## What a point writes back -/

/-- Entry y of the output block of point t is entry (t, y 1, y 2) of the array. -/
theorem outBlock_emb (t : Fin cfg0.N) (y : S1x2048x128.Idx) :
    (((cfg0.win 5).blk t).view.emb y : S8x2048x128.Idx) = ix3 (graphOf t) (y 1) (y 2) := by
  obtain ⟨-, -, -, -, -, -, -, -, -, -, -, e0, e1, e2⟩ := idx_facts t
  have h0 : (y 0).val < 1 := (y 0).isLt
  funext a
  apply Fin.ext
  match a with
  | ⟨0, _⟩ => show win0_5.index t (0 : Fin 3) * 1 + 1 * (y 0).val = t.val; omega
  | ⟨1, _⟩ => show win0_5.index t (1 : Fin 3) * 2048 + 1 * (y 1).val = (y 1).val; omega
  | ⟨2, _⟩ => show win0_5.index t (2 : Fin 3) * 128 + 1 * (y 2).val = (y 2).val; omega

/-- WHAT POINT t WRITES BACK is block t of the message network of the arrays the region finds. -/
theorem flushed_eq (c : Dev nD) (t : Fin cfg0.N) :
    (dat0 (F := Ideal) V c).flushed 5 t = ((cfg0.win 5).blk t).view.read (Elt Ideal) (messages V c) := by
  show (cfg0.win 5).cut (grid0.coords t) ((dat0 (F := Ideal) V c).after 5 t) = _
  rw [after0_5]
  funext y
  show out0_5 (F := Ideal) (iblk0 V c 0 t) (iblk0 V c 1 t) (iblk0 V c 2 t) (iblk0 V c 3 t) (iblk0 V c 4 t) y
      = messages V c (((cfg0.win 5).blk t).view.emb y)
  rw [outBlock_emb t y, body_at, weight1Block_eq V c t, bias1Block_eq V c t, weight2Block_eq V c t, bias2Block_eq V c t]
  show mlpRow (fun k => (iblk0 (F := Ideal) V c 0 t : Vec Ideal S1x2048x128 .f32) (ix3 (0 : Fin 1) (y 1) k))
        (matT (weight1 V c)) (row (bias1 V c)) (matT (weight2 V c)) (row (bias2 V c)) (y 2)
      = mlpRow (fun k => states V c (ix3 (graphOf t) (y 1) k))
        (matT (weight1 V c)) (row (bias1 V c)) (matT (weight2 V c)) (row (bias2 V c)) (y 2)
  exact congrArg (fun x => mlpRow x (matT (weight1 V c)) (row (bias1 V c)) (matT (weight2 V c)) (row (bias2 V c)) (y 2))
    (funext fun k => stateBlock_at V c t (y 1) k)

/-! ## The blocks tile the array -/

/-- An index of the array is in point t's block iff each coordinate is in the block's range on its axis. -/
theorem mem_outBlock (t : Fin cfg0.N) (i : S8x2048x128.Idx) :
    i ∈ ((cfg0.win 5).blk t).view.set ↔ ∀ a : Fin 3, win0_5.index t a * S1x2048x128.size a ≤ (i a).val
      ∧ (i a).val < win0_5.index t a * S1x2048x128.size a + S1x2048x128.size a := by
  show i ∈ ((View.whole main_v8).slice (win0_5.rect t)).set ↔ _
  rw [View.set_slice_whole, Rect.mem_set_unit]
  exact Iff.rfl

/-- Every entry (b, n, o) of the array is in the block of the point of graph b, which writes it back. -/
theorem covered (i : S8x2048x128.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 128 := (i 2).isLt
  have hN : cfg0.N = 8 := N_0
  let t : Fin cfg0.N := ⟨(i 0).val, by omega⟩
  obtain ⟨-, -, -, -, -, -, -, -, -, -, -, e0, e1, e2⟩ := idx_facts t
  have ht : t.val = (i 0).val := rfl
  refine ⟨t, flush0_5 t, ?_⟩
  rw [mem_outBlock]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 128 ≤ (i 2).val ∧ (i 2).val < win0_5.index t (2 : Fin 3) * 128 + 128; omega

/-! ## The array after the launch -/

/-- Region 0's output array after its launch is the message network of the arrays the region finds. -/
theorem region0_array (c : Dev nD) :
    (dat0 (F := Ideal) V c).arrAt 5 cfg0.N
      = ofFun3 (mlp (arr3 (V c main_arg0 : S8x2048x128.Idx → EReal)) (matT (V c main_v0 : S128x128.Idx → EReal))
          (row (V c main_v4 : S1x128.Idx → EReal)) (matT (V c main_v1 : S128x128.Idx → EReal))
          (row (V c main_v5 : S1x128.Idx → EReal))) :=
  (dat0 (F := Ideal) V c).arrAt_eq_of_cover 5 (messages V c) (fun t _ => flushed_eq V c t) covered

end Cert.KernelIdeal.Mlp

end
-- ==== Proof.Pay1.lean ====
/-
  The aggregation-and-update body at one entry of its output block.

  The body holds a [1,512,2048] tile a of adjacency rows, the whole [1,2048,128] message block mm of the graph, the
  [1,512,128] tile h of node states, the stored gate weights Wi, Wh : [128(in),384(out)] and the bias rows ci, ch : [1,384].
  At row p: s[p,j] = relu (Σ_k a[p,k] · mm[k,j]); gx[p,o] = Σ_k s[p,k] · Wi[k,o] + ci[o]; gh[p,o] = Σ_k h[p,k] · Wh[k,o] + ch[o];
  the column slices at offsets 0, 128, 256 are the r, z, n gates; r = σ (gx_r + gh_r), z = σ (gx_z + gh_z),
  ñ = tanh (gx_n + r · gh_n); the stored entry is (1 − z) · ñ + z · h[p,j]. Narrowing to bf16 is the identity on the extended
  reals and each product into a zero accumulator is the plain sum, so entry (0, p, j) is the gated update cell of row p.
-/
import proofs.«112451_j66872640798743_1_alg».proof.Proof.Gen.KernelIdeal.Frame
import proofs.«112451_j66872640798743_1_alg».proof.Proof.Spec
import proofs.«112451_j66872640798743_1_alg».proof.Proof.LibPlainDot
import proofs.«112451_j66872640798743_1_alg».proof.Proof.LibRowBias

set_option maxRecDepth 16384

noncomputable section

open scoped BigOperators

namespace Cert.KernelIdeal.AggGru

open Cert.KernelIdeal Cert.KernelIdeal.Gen Cert.GruLayer
open Idealize.ShloMosaic Idealize.ShloMosaic.TcCoe Idealize.ShloMosaic.ValueIdx Idealize.SL.Sem

/-! ## The two matrix products at an index

Both contractions pair the left operand's axis 1 with the right operand's axis 0 and have no batch axis, so into
a zero accumulator each holds at (p, q) the sum over k of L[p,k] · R[k,q]. -/

/-- The aggregation product [512,2048] · [2048,128] at (p, j): Σ_k a[p,k] · m[k,j]. -/
theorem aggDot_apply {φ₁ φ₂ : FTy} (a : FVec Ideal S512x2048 φ₁) (m : FVec Ideal S2048x128 φ₂) (p : Fin 512) (j : Fin 128) :
    matmul dot_S512x2048_S2048x128_S512x128_1_0_0_1_n_n none a m (constant S512x128 .f32 0x00000000#32) (ix2 p j)
      = ∑ k : Fin 2048, a (ix2 p k) * m (ix2 k j) :=
  Cert.PlainDot.matmul_zero_apply (M := 512) (K := 2048) (N := 128) none a m p j

/-- A gate product [512,128] · [128,384] at (p, q): Σ_k x[p,k] · w[k,q]. -/
theorem gateDot_apply {φ₁ φ₂ : FTy} (x : FVec Ideal S512x128 φ₁) (w : FVec Ideal S128x384 φ₂) (p : Fin 512) (q : Fin 384) :
    matmul dot_S512x128_S128x384_S512x384_1_0_0_1_n_n none x w (constant S512x384 .f32 0x00000000#32) (ix2 p q)
      = ∑ k : Fin 128, x (ix2 p k) * w (ix2 k q) :=
  Cert.PlainDot.matmul_zero_apply (M := 512) (K := 128) (N := 384) none x w p q

/-! ## The 384 gate columns of the two dense layers

Dropping the leading unit axis reads (p, k) at (0, p, k); narrowing is the identity; the bias row broadcast down the rows
holds its entry (0, q) in every row. So the input-side gates at (p, q) are the dense layer of the aggregated row p against
the stored weights read transposed, and the state-side gates are the dense layer of the state row p. -/

/-- Input-side gate column q of row p: Σ_k relu (Σ_k' a[p,k'] · mm[k',k]) · Wi[k,q] + ci[q]. -/
theorem pay3_apply (v0 : Vec Ideal S1x512x2048 .f32) (v3 : Vec Ideal S1x2048x128 .bf16) (v12 : Vec Ideal S128x384 .f32)
    (v19 : Vec Ideal S1x384 .f32) (p : Fin 512) (q : Fin 384) :
    k1_pay3 (F := Ideal) v0 v3 v12 v19 (ix2 p q)
      = dense (aggRow (fun k => v0 (ix3 (0 : Fin 1) p k)) (fun k j' => v3 (ix3 (0 : Fin 1) k j'))) (matT v12) (row v19) q := by
  unfold k1_pay3
  simp only [addf_apply, gateDot_apply, truncf_apply, maximumf_apply, broadcast_apply, aggDot_apply, shapeCast_1ab_ab_apply,
    shapeCast_self, Cert.RowBias.rows_apply]
  rfl

/-- The state tile with its unit axis dropped: entry (p, k) is h[0,p,k]. -/
theorem pay2_apply (v9 : Vec Ideal S1x512x128 .f32) (p : Fin 512) (k : Fin 128) :
    k1_pay2 (F := Ideal) v9 (ix2 p k) = v9 (ix3 (0 : Fin 1) p k) := by
  unfold k1_pay2
  exact shapeCast_1ab_ab_apply v9 _ p k

/-- State-side gate column q of row p: Σ_k h[p,k] · Wh[k,q] + ch[q]. -/
theorem pay4_apply (v9 : Vec Ideal S1x512x128 .f32) (v15 : Vec Ideal S128x384 .f32) (v24 : Vec Ideal S1x384 .f32)
    (p : Fin 512) (q : Fin 384) :
    k1_pay4 (F := Ideal) v9 v15 v24 (ix2 p q) = dense (fun k => v9 (ix3 (0 : Fin 1) p k)) (matT v15) (row v24) q := by
  unfold k1_pay4
  simp only [addf_apply, gateDot_apply, truncf_apply, pay2_apply, shapeCast_self, Cert.RowBias.rows_apply]
  rfl

/-! ## The three column slices

A slice of 128 columns from offset o reads, at (p, j), the sliced matrix at (p, o + j): column j of the r gates is column
0 + j, of the z gates 128 + j, of the n gates 256 + j. -/

/-- The n gate of the input side: column 256 + j. -/
theorem pay5_apply (v0 : Vec Ideal S1x512x2048 .f32) (v3 : Vec Ideal S1x2048x128 .bf16) (v12 : Vec Ideal S128x384 .f32)
    (v19 : Vec Ideal S1x384 .f32) (p : Fin 512) (j : Fin 128) :
    k1_pay5 (F := Ideal) v0 v3 v12 v19 (ix2 p j)
      = dense (aggRow (fun k => v0 (ix3 (0 : Fin 1) p k)) (fun k j' => v3 (ix3 (0 : Fin 1) k j'))) (matT v12) (row v19)
          (col 256 (by omega) j) := by
  unfold k1_pay5
  simp only [slice2_axis1_eq, pay3_apply]
  rfl

/-- The n gate of the state side: column 256 + j. -/
theorem pay6_apply (v9 : Vec Ideal S1x512x128 .f32) (v15 : Vec Ideal S128x384 .f32) (v24 : Vec Ideal S1x384 .f32)
    (p : Fin 512) (j : Fin 128) :
    k1_pay6 (F := Ideal) v9 v15 v24 (ix2 p j)
      = dense (fun k => v9 (ix3 (0 : Fin 1) p k)) (matT v15) (row v24) (col 256 (by omega) j) := by
  unfold k1_pay6
  simp only [slice2_axis1_eq, pay4_apply]
  rfl

/-- The reset gate r = σ (gx_r + gh_r): the logistic function of the sum of the two sides' columns 0 + j. -/
theorem pay7_apply (v0 : Vec Ideal S1x512x2048 .f32) (v3 : Vec Ideal S1x2048x128 .bf16) (v9 : Vec Ideal S1x512x128 .f32)
    (v12 v15 : Vec Ideal S128x384 .f32) (v19 v24 : Vec Ideal S1x384 .f32) (p : Fin 512) (j : Fin 128) :
    k1_pay7 (F := Ideal) v0 v3 v9 v12 v15 v19 v24 (ix2 p j)
      = Ideal.logistic
          (dense (aggRow (fun k => v0 (ix3 (0 : Fin 1) p k)) (fun k j' => v3 (ix3 (0 : Fin 1) k j'))) (matT v12) (row v19)
              (col 0 (by omega) j)
            + dense (fun k => v9 (ix3 (0 : Fin 1) p k)) (matT v15) (row v24) (col 0 (by omega) j)) := by
  unfold k1_pay7
  show FloatOps.logistic _ = _
  simp only [addf_apply, slice2_axis1_eq, pay3_apply, pay4_apply, Ideal.logistic_def]
  rfl

/-- The update gate before its logistic function, gx_z + gh_z: the sum of the two sides' columns 128 + j. -/
theorem pay8_apply (v0 : Vec Ideal S1x512x2048 .f32) (v3 : Vec Ideal S1x2048x128 .bf16) (v9 : Vec Ideal S1x512x128 .f32)
    (v12 v15 : Vec Ideal S128x384 .f32) (v19 v24 : Vec Ideal S1x384 .f32) (p : Fin 512) (j : Fin 128) :
    k1_pay8 (F := Ideal) v0 v3 v9 v12 v15 v19 v24 (ix2 p j)
      = dense (aggRow (fun k => v0 (ix3 (0 : Fin 1) p k)) (fun k j' => v3 (ix3 (0 : Fin 1) k j'))) (matT v12) (row v19)
            (col 128 (by omega) j)
          + dense (fun k => v9 (ix3 (0 : Fin 1) p k)) (matT v15) (row v24) (col 128 (by omega) j) := by
  unfold k1_pay8
  simp only [addf_apply, slice2_axis1_eq, pay3_apply, pay4_apply]
  rfl

/-! ## The convex combination

With z = σ (u), the stored entry (0, p, j) is (1 − z) · tanh (n_x + r · n_h) + z · h, every operation pointwise and the
added leading unit axis reading (0, p, j) at (p, j). -/

/-- The stored block at (0, p, j) from the five matrices it combines. -/
theorem pay1_apply (v10 v30 v33 v35 v36 : FVec Ideal S512x128 .f32) (p : Fin 512) (j : Fin 128) :
    k1_pay1 (F := Ideal) v10 v30 v33 v35 v36 (ix3 (0 : Fin 1) p j)
      = (Ideal.ofBits .f32 0x3F800000#32 - Ideal.logistic (v36 (ix2 p j)))
            * Ideal.tanh (v30 (ix2 p j) + v35 (ix2 p j) * v33 (ix2 p j))
          + Ideal.logistic (v36 (ix2 p j)) * v10 (ix2 p j) := by
  unfold k1_pay1
  simp only [shapeCast_ab_1ab_apply, addf_apply, mulf_apply, subf_apply, broadcast_apply]
  rfl

/-! ## The block the body leaves

The body's one store covers the whole output block and each load reads a whole block, so the block left is the payload of
the loaded blocks themselves; at (0, p, j) the lemmas above turn it into the gated update cell of the aggregated row p and
the state row p. -/

/-- Entry (0, p, j) of the block the body leaves, from the blocks it loads. -/
theorem out1_7_apply (x0 : Vec Ideal S1x512x2048 .f32) (x1 : Vec Ideal S1x2048x128 .bf16) (x2 : Vec Ideal S1x512x128 .f32)
    (x3 x4 : Vec Ideal S128x384 .f32) (x5 x6 : Vec Ideal S1x384 .f32) (p : Fin 512) (j : Fin 128) :
    out1_7 (F := Ideal) x0 x1 x2 x3 x4 x5 x6 (ix3 (0 : Fin 1) p j)
      = gruCell (aggRow (fun k => x0 (ix3 (0 : Fin 1) p k)) (fun k j' => x1 (ix3 (0 : Fin 1) k j')))
          (fun k => x2 (ix3 (0 : Fin 1) p k)) (matT x3) (row x5) (matT x4) (row x6) j := by
  have hz3 : (![0, 0, 0] : Fin 3 → Nat) = fun _ => 0 := funext fun a => by fin_cases a <;> rfl
  have hz2 : (![0, 0] : Fin 2 → Nat) = fun _ => 0 := funext fun a => by fin_cases a <;> rfl
  unfold out1_7
  rw [View.canon_unit_zero hz3]
  simp only [View.ld_unit_zero (S := S1x512x2048) hz3, View.ld_unit_zero (S := S1x2048x128) hz3,
    View.ld_unit_zero (S := S1x512x128) hz3, View.ld_unit_zero (S := S128x384) hz2, View.ld_unit_zero (S := S1x384) hz2]
  rw [pay1_apply, pay2_apply, pay5_apply, pay6_apply, pay7_apply, pay8_apply]
  rfl

end Cert.KernelIdeal.AggGru

end
-- ==== Proof.Region1.lean ====
/-
  What the aggregation-and-update launch leaves in its output array.

  The grid is (graph b, row tile i) = 8 × 4 points; at a point the body reads rows 512·i … 512·i+511 of the adjacency of
  graph b (all 2048 columns), the whole [2048,128] message block of graph b, the same 512 rows of the node states, the
  two stored gate weight matrices [128(in),384(out)] and the two bias rows [1,384]; it forms
  s = relu (A_tile · m), gx = s · Wi + ci, gh = h_tile · Wh + ch, splits the 384 columns into the r, z, n gates and
  stores (1 − z) · tanh (gx_n + r · gh_n) + z · h_tile as the [512,128] block (b, i) of the output. The 32 blocks tile
  the [8,2048,128] array, so the array ends holding the aggregation and gated update of the entry arrays.
-/
import proofs.«112451_j66872640798743_1_alg».proof.Proof.Gen.KernelIdeal.Frame
import proofs.«112451_j66872640798743_1_alg».proof.Proof.Spec
import proofs.«112451_j66872640798743_1_alg».proof.Proof.Pay1

set_option maxRecDepth 16384

noncomputable section

open scoped BigOperators

namespace Cert.KernelIdeal.AggGru

open Cert.KernelIdeal Cert.KernelIdeal.Gen Cert.GruLayer
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## Where each window's block sits at a grid point -/

/-- The block index maps over the 32 grid points (graph b, row tile i). The adjacency and state windows move with the
    output window on the graph and row axes and sit at block 0 on the last axis; the message window moves with it on the
    graph axis only and takes all 2048 rows; the two weight matrices and the two bias rows are read whole at block 0;
    the output's block indices run over 8 graphs and 4 row tiles, at block 0 on the feature axis. -/
theorem blockIndex_facts : ∀ t : Fin cfg1.N,
    win1_0.index t (0 : Fin 3) = win1_7.index t (0 : Fin 3)
    ∧ win1_0.index t (1 : Fin 3) = win1_7.index t (1 : Fin 3)
    ∧ win1_0.index t (2 : Fin 3) = 0
    ∧ win1_1.index t (0 : Fin 3) = win1_7.index t (0 : Fin 3)
    ∧ win1_1.index t (1 : Fin 3) = 0
    ∧ win1_1.index t (2 : Fin 3) = 0
    ∧ win1_2.index t (0 : Fin 3) = win1_7.index t (0 : Fin 3)
    ∧ win1_2.index t (1 : Fin 3) = win1_7.index t (1 : Fin 3)
    ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) ≤ 7 ∧ win1_7.index t (1 : Fin 3) ≤ 3 ∧ win1_7.index t (2 : Fin 3) = 0 :=
  (by decide +kernel : ∀ t : Fin grid1.N, _)

/-- Every pair (graph, row tile) is the output block index of some grid point. -/
theorem blockIndex_onto : ∀ (q0 : Fin 8) (q1 : Fin 4), ∃ t : Fin cfg1.N, win1_7.index t = ![q0.val, q1.val, 0] :=
  (by decide +kernel : ∀ (q0 : Fin 8) (q1 : Fin 4), ∃ t : Fin grid1.N, win1_7.index t = ![q0.val, q1.val, 0])

/-- An index of the output array lies in point `t`'s block iff each coordinate lies in the block's range on its axis. -/
theorem mem_outBlock (t : Fin cfg1.N) (i : S8x2048x128.Idx) :
    i ∈ ((cfg1.win 7).blk t).view.set ↔ ∀ a : Fin 3, win1_7.index t a * S1x512x128.size a ≤ (i a).val ∧ (i a).val < win1_7.index t a * S1x512x128.size a + S1x512x128.size a := by
  show i ∈ ((View.whole main_v9).slice (win1_7.rect t)).set ↔ _
  rw [View.set_slice_whole, Rect.mem_set_unit]
  exact Iff.rfl

/-- The 32 output blocks cover the [8,2048,128] array: row r of graph b lies in the block with index (b, r / 512, 0),
    since 512 · (r / 512) ≤ r < 512 · (r / 512) + 512. -/
theorem outBlock_cover (i : S8x2048x128.Idx) :
    ∃ t : Fin cfg1.N, (cfg1.win 7).flush t = true ∧ i ∈ ((cfg1.win 7).blk t).view.set := by
  have hi0 : (i 0).val < 8 := (i 0).isLt
  have hi1 : (i 1).val < 2048 := (i 1).isLt
  have hi2 : (i 2).val < 128 := (i 2).isLt
  obtain ⟨t, ht⟩ := blockIndex_onto ⟨(i 0).val, hi0⟩ ⟨(i 1).val / 512, by omega⟩
  have q0 : win1_7.index t (0 : Fin 3) = (i 0).val := congrFun ht 0
  have q1 : win1_7.index t (1 : Fin 3) = (i 1).val / 512 := congrFun ht 1
  have q2 : win1_7.index t (2 : Fin 3) = 0 := congrFun ht 2
  refine ⟨t, flush1_7 t, ?_⟩
  rw [mem_outBlock]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 128 ≤ (i 2).val ∧ (i 2).val < win1_7.index t (2 : Fin 3) * 128 + 128; omega

/-! ## The body's value at an entry of its output block -/

/-- An index of the [1,512,128] block has unit coordinate 0, so it is (0, p, j) with p its row and j its feature; there
    the body's value is the gated update of row p of the state block by the aggregate of row p of the adjacency block
    against the whole message block. -/
theorem out_entry (x0 : Vec Ideal S1x512x2048 .f32) (x1 : Vec Ideal S1x2048x128 .bf16) (x2 : Vec Ideal S1x512x128 .f32)
    (x3 x4 : Vec Ideal S128x384 .f32) (x5 x6 : Vec Ideal S1x384 .f32) (y : S1x512x128.Idx) :
    out1_7 (F := Ideal) x0 x1 x2 x3 x4 x5 x6 y
      = gruCell (aggRow (fun k => x0 (ix3 (0 : Fin 1) (y 1) k)) (fun k j' => x1 (ix3 (0 : Fin 1) k j')))
          (fun k => x2 (ix3 (0 : Fin 1) (y 1) k)) (matT x3) (row x5) (matT x4) (row x6) (y 2) := by
  have h0 : y 0 = (0 : Fin 1) := Fin.ext (by have h : (y 0).val < 1 := (y 0).isLt; show (y 0).val = 0; omega)
  have hy : y = ix3 (0 : Fin 1) (y 1) (y 2) := by rw [← h0]; exact eq_ix3 y
  exact (congrArg (out1_7 (F := Ideal) x0 x1 x2 x3 x4 x5 x6) hy).trans (out1_7_apply x0 x1 x2 x3 x4 x5 x6 (y 1) (y 2))

/-- The claimed contents of the output array: aggregation then gated update of the arrays the region finds. -/
abbrev target (c : Dev nD) : S8x2048x128.Idx → EReal :=
  ofFun3 (gru (agg (arr3 (V c main_arg1 : S8x2048x2048.Idx → EReal)) (arr3 (V c main_v8 : S8x2048x128.Idx → EReal)))
          (arr3 (V c main_arg0 : S8x2048x128.Idx → EReal))
          (matT (V c main_v2 : S128x384.Idx → EReal)) (row (V c main_v6 : S1x384.Idx → EReal))
          (matT (V c main_v3 : S128x384.Idx → EReal)) (row (V c main_v7 : S1x384.Idx → EReal)))

/-! ## Each input block as a part of its array

A block's coordinate on an axis is its block index times the block's extent plus the coordinate inside the block. -/

/-- Entry (0, p, k) of the adjacency block at a point is entry (b, r, k) of the adjacency array, where b is the output's
    graph index there and r = 512 · (row tile) + p. -/
theorem adjBlock_apply (c : Dev nD) (t : Fin cfg1.N) (p : Fin 512) (k : Fin 2048) (b : Fin 8) (r : Fin 2048)
    (hb : b.val = win1_7.index t (0 : Fin 3)) (hr : r.val = win1_7.index t (1 : Fin 3) * 512 + p.val) :
    (iblk1 V c 0 t : Vec Ideal S1x512x2048 .f32) (ix3 (0 : Fin 1) p k)
      = (V c main_arg1 : S8x2048x2048.Idx → EReal) (ix3 b r k) := by
  obtain ⟨e0, e1, e2, -⟩ := blockIndex_facts t
  unfold iblk1
  show V c main_arg1 (((cfg1.win 0).blk t).view.emb (ix3 (0 : Fin 1) p k)) = V c main_arg1 (ix3 b r k)
  congr 1
  funext a
  apply Fin.ext
  match a with
  | ⟨0, _⟩ => show win1_0.index t (0 : Fin 3) * 1 + 1 * 0 = b.val; omega
  | ⟨1, _⟩ => show win1_0.index t (1 : Fin 3) * 512 + 1 * p.val = r.val; omega
  | ⟨2, _⟩ => show win1_0.index t (2 : Fin 3) * 2048 + 1 * k.val = k.val; omega

/-- Entry (0, k, j) of the message block at a point is entry (b, k, j) of the message array, b the output's graph index. -/
theorem msgBlock_apply (c : Dev nD) (t : Fin cfg1.N) (k : Fin 2048) (j : Fin 128) (b : Fin 8)
    (hb : b.val = win1_7.index t (0 : Fin 3)) :
    (iblk1 V c 1 t : Vec Ideal S1x2048x128 .bf16) (ix3 (0 : Fin 1) k j)
      = (V c main_v8 : S8x2048x128.Idx → EReal) (ix3 b k j) := by
  obtain ⟨-, -, -, e0, e1, e2, -⟩ := blockIndex_facts t
  unfold iblk1
  show V c main_v8 (((cfg1.win 1).blk t).view.emb (ix3 (0 : Fin 1) k j)) = V c main_v8 (ix3 b k j)
  congr 1
  funext a
  apply Fin.ext
  match a with
  | ⟨0, _⟩ => show win1_1.index t (0 : Fin 3) * 1 + 1 * 0 = b.val; omega
  | ⟨1, _⟩ => show win1_1.index t (1 : Fin 3) * 2048 + 1 * k.val = k.val; omega
  | ⟨2, _⟩ => show win1_1.index t (2 : Fin 3) * 128 + 1 * j.val = j.val; omega

/-- Entry (0, p, k) of the state block at a point is entry (b, r, k) of the state array, with b and r as for the adjacency. -/
theorem stateBlock_apply (c : Dev nD) (t : Fin cfg1.N) (p : Fin 512) (k : Fin 128) (b : Fin 8) (r : Fin 2048)
    (hb : b.val = win1_7.index t (0 : Fin 3)) (hr : r.val = win1_7.index t (1 : Fin 3) * 512 + p.val) :
    (iblk1 V c 2 t : Vec Ideal S1x512x128 .f32) (ix3 (0 : Fin 1) p k)
      = (V c main_arg0 : S8x2048x128.Idx → EReal) (ix3 b r k) := by
  obtain ⟨-, -, -, -, -, -, e0, e1, e2, -⟩ := blockIndex_facts t
  unfold iblk1
  show V c main_arg0 (((cfg1.win 2).blk t).view.emb (ix3 (0 : Fin 1) p k)) = V c main_arg0 (ix3 b r k)
  congr 1
  funext a
  apply Fin.ext
  match a with
  | ⟨0, _⟩ => show win1_2.index t (0 : Fin 3) * 1 + 1 * 0 = b.val; omega
  | ⟨1, _⟩ => show win1_2.index t (1 : Fin 3) * 512 + 1 * p.val = r.val; omega
  | ⟨2, _⟩ => show win1_2.index t (2 : Fin 3) * 128 + 1 * k.val = k.val; omega

/-- The input-side gate weights are read whole at every point. -/
theorem wiBlock_eq (c : Dev nD) (t : Fin cfg1.N) :
    (iblk1 V c 3 t : Vec Ideal S128x384 .f32) = (V c main_v2 : S128x384.Idx → EReal) := by
  obtain ⟨-, -, -, -, -, -, -, -, -, e0, e1, -⟩ := blockIndex_facts t
  unfold iblk1
  funext i
  show V c main_v2 (((cfg1.win 3).blk t).view.emb i) = V c main_v2 i
  congr 1
  funext a
  apply Fin.ext
  match a with
  | ⟨0, _⟩ => show win1_3.index t (0 : Fin 2) * 128 + 1 * (i 0).val = (i 0).val; omega
  | ⟨1, _⟩ => show win1_3.index t (1 : Fin 2) * 384 + 1 * (i 1).val = (i 1).val; omega

/-- The state-side gate weights are read whole at every point. -/
theorem whBlock_eq (c : Dev nD) (t : Fin cfg1.N) :
    (iblk1 V c 4 t : Vec Ideal S128x384 .f32) = (V c main_v3 : S128x384.Idx → EReal) := by
  obtain ⟨-, -, -, -, -, -, -, -, -, -, -, e0, e1, -⟩ := blockIndex_facts t
  unfold iblk1
  funext i
  show V c main_v3 (((cfg1.win 4).blk t).view.emb i) = V c main_v3 i
  congr 1
  funext a
  apply Fin.ext
  match a with
  | ⟨0, _⟩ => show win1_4.index t (0 : Fin 2) * 128 + 1 * (i 0).val = (i 0).val; omega
  | ⟨1, _⟩ => show win1_4.index t (1 : Fin 2) * 384 + 1 * (i 1).val = (i 1).val; omega

/-- The input-side gate bias row is read whole at every point. -/
theorem ciBlock_eq (c : Dev nD) (t : Fin cfg1.N) :
    (iblk1 V c 5 t : Vec Ideal S1x384 .f32) = (V c main_v6 : S1x384.Idx → EReal) := by
  obtain ⟨-, -, -, -, -, -, -, -, -, -, -, -, -, e0, e1, -⟩ := blockIndex_facts t
  unfold iblk1
  funext i
  show V c main_v6 (((cfg1.win 5).blk t).view.emb i) = V c main_v6 i
  congr 1
  funext a
  apply Fin.ext
  match a with
  | ⟨0, _⟩ => show win1_5.index t (0 : Fin 2) * 1 + 1 * (i 0).val = (i 0).val; omega
  | ⟨1, _⟩ => show win1_5.index t (1 : Fin 2) * 384 + 1 * (i 1).val = (i 1).val; omega

/-- The state-side gate bias row is read whole at every point. -/
theorem chBlock_eq (c : Dev nD) (t : Fin cfg1.N) :
    (iblk1 V c 6 t : Vec Ideal S1x384 .f32) = (V c main_v7 : S1x384.Idx → EReal) := by
  obtain ⟨-, -, -, -, -, -, -, -, -, -, -, -, -, -, -, e0, e1, -⟩ := blockIndex_facts t
  unfold iblk1
  funext i
  show V c main_v7 (((cfg1.win 6).blk t).view.emb i) = V c main_v7 i
  congr 1
  funext a
  apply Fin.ext
  match a with
  | ⟨0, _⟩ => show win1_6.index t (0 : Fin 2) * 1 + 1 * (i 0).val = (i 0).val; omega
  | ⟨1, _⟩ => show win1_6.index t (1 : Fin 2) * 384 + 1 * (i 1).val = (i 1).val; omega

/-! ## From blocks to the array -/

/-- The gated update of an aggregate depends only on the rows, the weights, the biases and the feature it is given. -/
theorem cell_congr {A A' : Fin 2048 → EReal} {M M' : Fin 2048 → Fin 128 → EReal} {H H' : Fin 128 → EReal}
    {wi wi' wh wh' : Fin 384 → Fin 128 → EReal} {ci ci' ch ch' : Fin 384 → EReal} {j j' : Fin 128}
    (hA : A = A') (hM : M = M') (hH : H = H') (hwi : wi = wi') (hci : ci = ci') (hwh : wh = wh') (hch : ch = ch')
    (hj : j = j') :
    gruCell (aggRow A M) H wi ci wh ch j = gruCell (aggRow A' M') H' wi' ci' wh' ch' j' := by
  subst hA hM hH hwi hci hwh hch hj; rfl

/-- What point `t` writes back is block `t` of the claimed contents: at entry (0, p, j) of the block both sides are the
    gated update at feature j of the same adjacency row, message block, state row, weights and biases, because the
    block's entry sits at graph b, row 512 · (row tile) + p, feature j of the array. -/
theorem flushed_block (c : Dev nD) (t : Fin cfg1.N) :
    (dat1 (F := Ideal) V c).flushed 7 t = ((cfg1.win 7).blk t).view.read (Elt Ideal) (target V c) := by
  show (cfg1.win 7).cut (grid1.coords t) ((dat1 V c).after 7 t) = _
  rw [after1_7]
  funext y
  show out1_7 (F := Ideal) (iblk1 V c 0 t) (iblk1 V c 1 t) (iblk1 V c 2 t) (iblk1 V c 3 t) (iblk1 V c 4 t) (iblk1 V c 5 t) (iblk1 V c 6 t) y
    = target V c (((cfg1.win 7).blk t).view.emb y)
  refine (out_entry (iblk1 V c 0 t) (iblk1 V c 1 t) (iblk1 V c 2 t) (iblk1 V c 3 t) (iblk1 V c 4 t) (iblk1 V c 5 t) (iblk1 V c 6 t) y).trans ?_
  obtain ⟨-, -, -, -, -, -, -, -, -, -, -, -, -, -, -, -, -, -, -, e2⟩ := blockIndex_facts t
  have hy0 : (y 0).val < 1 := (y 0).isLt
  have hb : ((((cfg1.win 7).blk t).view.emb y) 0).val = win1_7.index t (0 : Fin 3) := by
    show win1_7.index t (0 : Fin 3) * 1 + 1 * (y 0).val = _; omega
  have hr : ((((cfg1.win 7).blk t).view.emb y) 1).val = win1_7.index t (1 : Fin 3) * 512 + (y 1).val := by
    show win1_7.index t (1 : Fin 3) * 512 + 1 * (y 1).val = _; omega
  have hj : y 2 = (((cfg1.win 7).blk t).view.emb y) 2 := Fin.ext (by
    show (y 2).val = win1_7.index t (2 : Fin 3) * 128 + 1 * (y 2).val; omega)
  exact cell_congr
    (funext fun k => adjBlock_apply V c t (y 1) k _ _ hb hr)
    (funext fun k => funext fun j' => msgBlock_apply V c t k j' _ hb)
    (funext fun k => stateBlock_apply V c t (y 1) k _ _ hb hr)
    (congrArg matT (wiBlock_eq V c t)) (congrArg row (ciBlock_eq V c t))
    (congrArg matT (whBlock_eq V c t)) (congrArg row (chBlock_eq V c t)) hj

/-- Region 1's output array after its launch is the aggregation and gated update of the arrays the region finds. -/
theorem region1_array (c : Dev nD) :
    (dat1 (F := Ideal) V c).arrAt 7 cfg1.N
      = ofFun3 (gru (agg (arr3 (V c main_arg1 : S8x2048x2048.Idx → EReal)) (arr3 (V c main_v8 : S8x2048x128.Idx → EReal)))
          (arr3 (V c main_arg0 : S8x2048x128.Idx → EReal))
          (matT (V c main_v2 : S128x384.Idx → EReal)) (row (V c main_v6 : S1x384.Idx → EReal))
          (matT (V c main_v3 : S128x384.Idx → EReal)) (row (V c main_v7 : S1x384.Idx → EReal))) :=
  (dat1 (F := Ideal) V c).arrAt_eq_of_cover 7 (target V c) (fun t _ => flushed_block V c t) outBlock_cover

end Cert.KernelIdeal.AggGru

end
-- ==== Proof.KernelValue.lean ====
/-
  The kernel's result array is the layer of its arguments.

  The result array is the second launch's output, which holds the aggregation and gated update of the arrays that
  launch finds: the adjacency and the node states as launched, the gate weights and biases as the host laid them out
  (a stored transpose is the weight, a one-row layout the bias), and the first launch's output, which holds the message
  network of the node states and the first four parameters. Composing the three is the layer.
-/
import proofs.«112451_j66872640798743_1_alg».proof.Proof.Gen.KernelIdeal.Frame
import proofs.«112451_j66872640798743_1_alg».proof.Proof.Spec
import proofs.«112451_j66872640798743_1_alg».proof.Proof.HostIn
import proofs.«112451_j66872640798743_1_alg».proof.Proof.Region0
import proofs.«112451_j66872640798743_1_alg».proof.Proof.Region1

set_option maxRecDepth 16384

noncomputable section

open scoped BigOperators

namespace Cert.KernelIdeal.Result

open Cert.KernelIdeal Cert.KernelIdeal.Gen Cert.GruLayer
open Idealize.ShloMosaic Idealize.ShloMosaic.TcCoe Idealize.ShloMosaic.ValueIdx Idealize.SL.Sem

variable (m : (ℓ : Loc nD τ sig) → Buf (Elt Ideal) ℓ) (ρ : Dev nD → PrngReg)

/-- The messages the second launch finds are the message network of the launch memory. -/
theorem messages (c : Dev nD) :
    arr3 (V2 m ρ c main_v8 : S8x2048x128.Idx → EReal)
      = mlp (arr3 (m ((c : Thread nD τ).loc main_arg0))) (mat (m ((c : Thread nD τ).loc main_arg2)))
          (vec (m ((c : Thread nD τ).loc main_arg3))) (mat (m ((c : Thread nD τ).loc main_arg4)))
          (vec (m ((c : Thread nD τ).loc main_arg5))) := by
  rw [show (V2 m ρ c main_v8 : S8x2048x128.Idx → EReal) = _ from (HostIn.V2_m m ρ c).trans (Mlp.region0_array (V1 m ρ) c)]
  rw [arr3_ofFun3, HostIn.V1_h, HostIn.V1_w1, HostIn.V1_c1, HostIn.V1_w2, HostIn.V1_c2]

/-- The result array after the run, as the last boundary's contents name it, is the layer of the launch memory. -/
theorem result_eq (c : Dev nD) :
    W3 m ρ c (Proc.devRef .tc main_v9)
      = ofFun3 (layer (arr3 (m ((c : Thread nD τ).loc main_arg0))) (arr3 (m ((c : Thread nD τ).loc main_arg1)))
          (mat (m ((c : Thread nD τ).loc main_arg2))) (vec (m ((c : Thread nD τ).loc main_arg3)))
          (mat (m ((c : Thread nD τ).loc main_arg4))) (vec (m ((c : Thread nD τ).loc main_arg5)))
          (mat (m ((c : Thread nD τ).loc main_arg6))) (vec (m ((c : Thread nD τ).loc main_arg8)))
          (mat (m ((c : Thread nD τ).loc main_arg7))) (vec (m ((c : Thread nD τ).loc main_arg9)))) := by
  refine ((W3_arr m ρ c 7).trans (AggGru.region1_array (V2 m ρ) c)).trans ?_
  rw [messages, HostIn.V2_a, HostIn.V2_h, HostIn.V2_wi, HostIn.V2_ci, HostIn.V2_wh, HostIn.V2_ch]
  rfl

end Cert.KernelIdeal.Result

end
-- ==== Proof.RefValue.lean ====
/-
  The reference program's result is the layer of its arguments.

  The reference computes, on whole [8,2048,·] arrays: two dense layers with relu (each a contraction of the last axis
  with the weight's last axis, plus the bias broadcast), the batched product of the adjacency with the messages, relu,
  the two gate pre-activations [8,2048,384], their three column slices, the logistic function spelled as
  1 / (1 + exp (−x)), tanh, and the convex combination with the state. Read at an index (b, n, j), operation by
  operation, that is the layer's entry (b, n, j).
-/
import proofs.«112451_j66872640798743_1_alg».proof.Proof.Gen.ReferenceIdeal.Read
import proofs.«112451_j66872640798743_1_alg».proof.Proof.Spec

set_option maxRecDepth 16384

noncomputable section

open scoped BigOperators

namespace Cert.ReferenceIdeal.RefValue

open Cert.ReferenceIdeal Cert.ReferenceIdeal.Gen Cert.GruLayer
open Idealize.ShloMosaic Idealize.ShloMosaic.TcCoe Idealize.ShloMosaic.ValueIdx Idealize.SL.Sem

section Stages

variable (x0 : S8x2048x128.Idx → EReal) (x1 : S8x2048x2048.Idx → EReal) (x2 : S128x128.Idx → EReal)
  (x3 : S128.Idx → EReal) (x4 : S128x128.Idx → EReal) (x5 : S128.Idx → EReal) (x6 x7 : S384x128.Idx → EReal)
  (x8 x9 : S384.Idx → EReal) (b : Fin 8) (n : Fin 2048)

/-! ## The message network -/

/-- The first dense layer with its relu, at (b, n, o): the contraction over the state row's features against row `o` of
    the stored weight, plus the bias entry `o`, clamped below at the zero word. -/
theorem v4_at (o : Fin 128) :
    Read.val_main_v4 (F := Ideal) x0 x2 x3 (ix3 b n o) = relu (dense (arr3 x0 b n) (mat x2) (vec x3) o) := by
  have el : ∀ k : Fin 128, Read.lidx_main_v0 (ix3 b n o) k = ix3 b n k := fun k => funext fun a => Fin.ext (by match a with | ⟨0, _⟩ => rfl | ⟨1, _⟩ => rfl | ⟨2, _⟩ => rfl)
  have er : ∀ k : Fin 128, Read.ridx_main_v0 (ix3 b n o) k = ix2 o k := fun k => funext fun a => Fin.ext (by match a with | ⟨0, _⟩ => rfl | ⟨1, _⟩ => rfl)
  have eb : Read.idx_main_v1 (Read.idx_main_v2 (ix3 b n o)) = ix1 o := funext fun a => Fin.ext (by match a with | ⟨0, _⟩ => rfl)
  rw [Read.val_main_v4_apply, Read.val_main_v3_apply, Read.val_main_v0_apply, Read.val_main_v2_apply,
    Read.val_main_v1_apply, Read.val_main_call0_v0_apply, Read.val_main_call0_cst_apply, eb]
  simp only [el, er]
  rfl

/-- The second dense layer with its relu, over the first layer's row: the message network at (b, n, o). -/
theorem v9_at (o : Fin 128) :
    Read.val_main_v9 (F := Ideal) x0 x2 x3 x4 x5 (ix3 b n o)
      = mlp (arr3 x0) (mat x2) (vec x3) (mat x4) (vec x5) b n o := by
  have el : ∀ k : Fin 128, Read.lidx_main_v5 (ix3 b n o) k = ix3 b n k := fun k => funext fun a => Fin.ext (by match a with | ⟨0, _⟩ => rfl | ⟨1, _⟩ => rfl | ⟨2, _⟩ => rfl)
  have er : ∀ k : Fin 128, Read.ridx_main_v5 (ix3 b n o) k = ix2 o k := fun k => funext fun a => Fin.ext (by match a with | ⟨0, _⟩ => rfl | ⟨1, _⟩ => rfl)
  have eb : Read.idx_main_v6 (Read.idx_main_v7 (ix3 b n o)) = ix1 o := funext fun a => Fin.ext (by match a with | ⟨0, _⟩ => rfl)
  rw [Read.val_main_v9_apply, Read.val_main_v8_apply, Read.val_main_v5_apply, Read.val_main_v7_apply,
    Read.val_main_v6_apply, Read.val_main_call1_v0_apply, Read.val_main_call1_cst_apply, eb]
  simp only [el, er, v4_at]
  rfl

/-! ## Aggregation -/

/-- The batched product of the adjacency with the messages, then relu, at (b, n, j): the contraction runs over the
    nodes of graph `b`, along row `n` of its adjacency and column `j` of its messages. -/
theorem v11_at (j : Fin 128) :
    Read.val_main_v11 (F := Ideal) x0 x1 x2 x3 x4 x5 (ix3 b n j)
      = agg (arr3 x1) (mlp (arr3 x0) (mat x2) (vec x3) (mat x4) (vec x5)) b n j := by
  have el : ∀ k : Fin 2048, Read.lidx_main_v10 (ix3 b n j) k = ix3 b n k := fun k => funext fun a => Fin.ext (by match a with | ⟨0, _⟩ => rfl | ⟨1, _⟩ => rfl | ⟨2, _⟩ => rfl)
  have er : ∀ k : Fin 2048, Read.ridx_main_v10 (ix3 b n j) k = ix3 b k j := fun k => funext fun a => Fin.ext (by match a with | ⟨0, _⟩ => rfl | ⟨1, _⟩ => rfl | ⟨2, _⟩ => rfl)
  rw [Read.val_main_v11_apply, Read.val_main_v10_apply, Read.val_main_call2_v0_apply,
    Read.val_main_call2_cst_apply]
  simp only [el, er, v9_at]
  rfl

/-! ## The gate pre-activations -/

/-- The input-side pre-activation at (b, n, q), q one of the 384 gate columns: a dense layer on the aggregate's row. -/
theorem v15_at (q : Fin 384) :
    Read.val_main_v15 (F := Ideal) x0 x1 x2 x3 x4 x5 x6 x8 (ix3 b n q)
      = dense (agg (arr3 x1) (mlp (arr3 x0) (mat x2) (vec x3) (mat x4) (vec x5)) b n) (mat x6) (vec x8) q := by
  have el : ∀ k : Fin 128, Read.lidx_main_v12 (ix3 b n q) k = ix3 b n k := fun k => funext fun a => Fin.ext (by match a with | ⟨0, _⟩ => rfl | ⟨1, _⟩ => rfl | ⟨2, _⟩ => rfl)
  have er : ∀ k : Fin 128, Read.ridx_main_v12 (ix3 b n q) k = ix2 q k := fun k => funext fun a => Fin.ext (by match a with | ⟨0, _⟩ => rfl | ⟨1, _⟩ => rfl)
  have eb : Read.idx_main_v13 (Read.idx_main_v14 (ix3 b n q)) = ix1 q := funext fun a => Fin.ext (by match a with | ⟨0, _⟩ => rfl)
  rw [Read.val_main_v15_apply, Read.val_main_v12_apply, Read.val_main_v14_apply, Read.val_main_v13_apply, eb]
  simp only [el, er, v11_at]
  rfl

/-- The state-side pre-activation at (b, n, q): a dense layer on the state's row. -/
theorem v19_at (q : Fin 384) :
    Read.val_main_v19 (F := Ideal) x0 x7 x9 (ix3 b n q) = dense (arr3 x0 b n) (mat x7) (vec x9) q := by
  have el : ∀ k : Fin 128, Read.lidx_main_v16 (ix3 b n q) k = ix3 b n k := fun k => funext fun a => Fin.ext (by match a with | ⟨0, _⟩ => rfl | ⟨1, _⟩ => rfl | ⟨2, _⟩ => rfl)
  have er : ∀ k : Fin 128, Read.ridx_main_v16 (ix3 b n q) k = ix2 q k := fun k => funext fun a => Fin.ext (by match a with | ⟨0, _⟩ => rfl | ⟨1, _⟩ => rfl)
  have eb : Read.idx_main_v17 (Read.idx_main_v18 (ix3 b n q)) = ix1 q := funext fun a => Fin.ext (by match a with | ⟨0, _⟩ => rfl)
  rw [Read.val_main_v19_apply, Read.val_main_v16_apply, Read.val_main_v18_apply, Read.val_main_v17_apply, eb]
  simp only [el, er]
  rfl

/-! ## The three column slices of each pre-activation

A slice of the last axis at offset `off` reads column `off + j`. -/

/-- The input side's reset columns. -/
theorem v20_at (j : Fin 128) :
    Read.val_main_v20 (F := Ideal) x0 x1 x2 x3 x4 x5 x6 x8 (ix3 b n j)
      = dense (agg (arr3 x1) (mlp (arr3 x0) (mat x2) (vec x3) (mat x4) (vec x5)) b n) (mat x6) (vec x8) (col 0 (by omega) j) := by
  have e : Read.idx_main_v20 (ix3 b n j) = ix3 b n (col 0 (by omega) j) :=
    funext fun a => Fin.ext (by
      match a with
      | ⟨0, _⟩ => rfl
      | ⟨1, _⟩ => rfl
      | ⟨2, _⟩ => exact (Nat.zero_add _).symm)
  rw [Read.val_main_v20_apply, e, v15_at]

/-- The input side's update columns. -/
theorem v21_at (j : Fin 128) :
    Read.val_main_v21 (F := Ideal) x0 x1 x2 x3 x4 x5 x6 x8 (ix3 b n j)
      = dense (agg (arr3 x1) (mlp (arr3 x0) (mat x2) (vec x3) (mat x4) (vec x5)) b n) (mat x6) (vec x8) (col 128 (by omega) j) := by
  have e : Read.idx_main_v21 (ix3 b n j) = ix3 b n (col 128 (by omega) j) :=
    funext fun a => Fin.ext (by
      match a with
      | ⟨0, _⟩ => rfl
      | ⟨1, _⟩ => rfl
      | ⟨2, _⟩ => rfl)
  rw [Read.val_main_v21_apply, e, v15_at]

/-- The input side's candidate columns. -/
theorem v22_at (j : Fin 128) :
    Read.val_main_v22 (F := Ideal) x0 x1 x2 x3 x4 x5 x6 x8 (ix3 b n j)
      = dense (agg (arr3 x1) (mlp (arr3 x0) (mat x2) (vec x3) (mat x4) (vec x5)) b n) (mat x6) (vec x8) (col 256 (by omega) j) := by
  have e : Read.idx_main_v22 (ix3 b n j) = ix3 b n (col 256 (by omega) j) :=
    funext fun a => Fin.ext (by
      match a with
      | ⟨0, _⟩ => rfl
      | ⟨1, _⟩ => rfl
      | ⟨2, _⟩ => rfl)
  rw [Read.val_main_v22_apply, e, v15_at]

/-- The state side's reset columns. -/
theorem v23_at (j : Fin 128) :
    Read.val_main_v23 (F := Ideal) x0 x7 x9 (ix3 b n j)
      = dense (arr3 x0 b n) (mat x7) (vec x9) (col 0 (by omega) j) := by
  have e : Read.idx_main_v23 (ix3 b n j) = ix3 b n (col 0 (by omega) j) :=
    funext fun a => Fin.ext (by
      match a with
      | ⟨0, _⟩ => rfl
      | ⟨1, _⟩ => rfl
      | ⟨2, _⟩ => exact (Nat.zero_add _).symm)
  rw [Read.val_main_v23_apply, e, v19_at]

/-- The state side's update columns. -/
theorem v24_at (j : Fin 128) :
    Read.val_main_v24 (F := Ideal) x0 x7 x9 (ix3 b n j)
      = dense (arr3 x0 b n) (mat x7) (vec x9) (col 128 (by omega) j) := by
  have e : Read.idx_main_v24 (ix3 b n j) = ix3 b n (col 128 (by omega) j) :=
    funext fun a => Fin.ext (by
      match a with
      | ⟨0, _⟩ => rfl
      | ⟨1, _⟩ => rfl
      | ⟨2, _⟩ => rfl)
  rw [Read.val_main_v24_apply, e, v19_at]

/-- The state side's candidate columns. -/
theorem v25_at (j : Fin 128) :
    Read.val_main_v25 (F := Ideal) x0 x7 x9 (ix3 b n j)
      = dense (arr3 x0 b n) (mat x7) (vec x9) (col 256 (by omega) j) := by
  have e : Read.idx_main_v25 (ix3 b n j) = ix3 b n (col 256 (by omega) j) :=
    funext fun a => Fin.ext (by
      match a with
      | ⟨0, _⟩ => rfl
      | ⟨1, _⟩ => rfl
      | ⟨2, _⟩ => rfl)
  rw [Read.val_main_v25_apply, e, v19_at]

/-! ## The gates

The reference spells the logistic function as the quotient of the word for 1.0 by that word plus the exponential of the
negated argument; on the extended reals that quotient is the logistic function. -/

/-- The reset gate at (b, n, j). -/
theorem v32_at (j : Fin 128) :
    Read.val_main_v32 (F := Ideal) x0 x1 x2 x3 x4 x5 x6 x7 x8 x9 (ix3 b n j)
      = Ideal.logistic (dense (agg (arr3 x1) (mlp (arr3 x0) (mat x2) (vec x3) (mat x4) (vec x5)) b n) (mat x6) (vec x8) (col 0 (by omega) j) + dense (arr3 x0 b n) (mat x7) (vec x9) (col 0 (by omega) j)) := by
  rw [Read.val_main_v32_apply, Read.val_main_v31_apply, Read.val_main_cst_0_apply, Read.val_main_v30_apply,
    Read.val_main_v29_apply, Read.val_main_cst_apply, Read.val_main_v28_apply, Read.val_main_v27_apply,
    Read.val_main_v26_apply, v20_at, v23_at]
  exact logistic_spelled _

/-- The update gate at (b, n, j). -/
theorem v39_at (j : Fin 128) :
    Read.val_main_v39 (F := Ideal) x0 x1 x2 x3 x4 x5 x6 x7 x8 x9 (ix3 b n j)
      = Ideal.logistic (dense (agg (arr3 x1) (mlp (arr3 x0) (mat x2) (vec x3) (mat x4) (vec x5)) b n) (mat x6) (vec x8) (col 128 (by omega) j) + dense (arr3 x0 b n) (mat x7) (vec x9) (col 128 (by omega) j)) := by
  rw [Read.val_main_v39_apply, Read.val_main_v38_apply, Read.val_main_cst_2_apply, Read.val_main_v37_apply,
    Read.val_main_v36_apply, Read.val_main_cst_1_apply, Read.val_main_v35_apply, Read.val_main_v34_apply,
    Read.val_main_v33_apply, v21_at, v24_at]
  exact logistic_spelled _

/-! ## The update -/

/-- The last stage at (b, n, j) is the gated recurrent cell on the aggregate's row and the state's row. -/
theorem v47_at (j : Fin 128) :
    Read.val_main_v47 (F := Ideal) x0 x1 x2 x3 x4 x5 x6 x7 x8 x9 (ix3 b n j)
      = gruCell (agg (arr3 x1) (mlp (arr3 x0) (mat x2) (vec x3) (mat x4) (vec x5)) b n) (arr3 x0 b n) (mat x6) (vec x8) (mat x7) (vec x9) j := by
  rw [Read.val_main_v47_apply, Read.val_main_v45_apply, Read.val_main_v46_apply, Read.val_main_v44_apply,
    Read.val_main_v43_apply, Read.val_main_cst_3_apply, Read.val_main_v42_apply, Read.val_main_v41_apply,
    Read.val_main_v40_apply, v39_at, v32_at, v22_at, v25_at]
  rfl

end Stages

/-- The last stage of the reference's run, as a function of the ten argument arrays, is the layer. -/
theorem ref_eq (x0 : S8x2048x128.Idx → EReal) (x1 : S8x2048x2048.Idx → EReal) (x2 : S128x128.Idx → EReal)
    (x3 : S128.Idx → EReal) (x4 : S128x128.Idx → EReal) (x5 : S128.Idx → EReal) (x6 x7 : S384x128.Idx → EReal)
    (x8 x9 : S384.Idx → EReal) :
    Cert.ReferenceIdeal.Read.val_main_v47 (F := Ideal) x0 x1 x2 x3 x4 x5 x6 x7 x8 x9
      = ofFun3 (layer (arr3 x0) (arr3 x1) (mat x2) (vec x3) (mat x4) (vec x5) (mat x6) (vec x8) (mat x7) (vec x9)) := by
  funext i
  obtain ⟨b, n, j, rfl⟩ : ∃ b n j, i = ix3 b n j := ⟨i 0, i 1, i 2, eq_ix3 i⟩
  exact v47_at x0 x1 x2 x3 x4 x5 x6 x7 x8 x9 b n j

end Cert.ReferenceIdeal.RefValue

end
-- ==== Proof.Claims.lean ====
/-
  The five claims.

  The two kernel programs' frames are their generated frame certificates and the reference's frame is its generated run
  with the result dropped. The idealization rewrote no operation, so there is nothing to preserve. For the equivalence:
  the idealized kernel's run ends with its result array at the layer of its own argument arrays (the run with the final
  memory named, then the value of the last boundary's contents), the idealized reference's run ends with its result at its
  last stage, which is the layer of ITS argument arrays, and the two memories agree on the arguments.
-/
import proofs.«112451_j66872640798743_1_alg».proof.Defs
import proofs.«112451_j66872640798743_1_alg».proof.Proof.Gen.Kernel.Frame
import proofs.«112451_j66872640798743_1_alg».proof.Proof.Gen.KernelIdeal.Frame
import proofs.«112451_j66872640798743_1_alg».proof.Proof.Gen.ReferenceIdeal.Run
import proofs.«112451_j66872640798743_1_alg».proof.Proof.Gen.ReferenceIdeal.Read
import proofs.«112451_j66872640798743_1_alg».proof.Proof.Gen.Kernel
import proofs.«112451_j66872640798743_1_alg».proof.Proof.Gen.KernelIdeal
import proofs.«112451_j66872640798743_1_alg».proof.Proof.Gen.ReferenceIdeal
import proofs.«112451_j66872640798743_1_alg».proof.Proof.Gen.Pre_finite_inputs
import proofs.«112451_j66872640798743_1_alg».proof.Proof.Spec
import proofs.«112451_j66872640798743_1_alg».proof.Proof.RunNamed
import proofs.«112451_j66872640798743_1_alg».proof.Proof.KernelValue
import proofs.«112451_j66872640798743_1_alg».proof.Proof.RefValue

noncomputable section

namespace Cert.Proof.Claims

open Idealize.ShloMosaic Idealize.ShloMosaic.TcCoe Idealize.SL.Sem Cert.GruLayer

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer of the kernel's argument arrays. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Result.result_eq m ρ c), (h c).2⟩)
    (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v47_eq, Cert.ReferenceIdeal.RefValue.ref_eq, e0, e1, e2, e3, e4, e5, e6, e7, e8, e9]

end Cert.Proof.Claims

end
-- ==== Proof.lean ====
/-
  The proof of `Cert.Claim`: a Pallas kernel of two launches — a two-layer message network over every node's state, then
  adjacency aggregation with a fused gated recurrent update — against its jnp reference, over the extended reals.

  Both programs compute, entry by entry, the one function `Cert.GruLayer.layer` of the ten argument arrays
  (Proof/Spec.lean). Kernel side: the body of each launch at one entry of its output block (Proof/Pay0.lean,
  Proof/Pay1.lean), each launch's output array from its blocks (Proof/Region0.lean, Proof/Region1.lean), the arrays the
  launches find in terms of the launch memory (Proof/HostIn.lean), their composition (Proof/KernelValue.lean), and the run
  with the final memory named (Proof/RunNamed.lean). Reference side: its last stage read at an index, operation by
  operation (Proof/RefValue.lean). The two differ only in how sums are tiled, in float formats that are the identity here,
  in stored transposes, and in the logistic function being one operation or the quotient 1 / (1 + exp (−x)): one function
  on the extended reals. The five claims are in Proof/Claims.lean; here they stand behind the witnesses of the programs'
  stated facts.
-/
import proofs.«112451_j66872640798743_1_alg».proof.Defs
import proofs.«112451_j66872640798743_1_alg».proof.Proof.Claims
import proofs.«112451_j66872640798743_1_alg».proof.Proof.Gen.Kernel
import proofs.«112451_j66872640798743_1_alg».proof.Proof.Gen.Kernel.Skeleton
import proofs.«112451_j66872640798743_1_alg».proof.Proof.Gen.Kernel.Launch
import proofs.«112451_j66872640798743_1_alg».proof.Proof.Gen.Kernel.Points
import proofs.«112451_j66872640798743_1_alg».proof.Proof.Gen.Kernel.Frame
import proofs.«112451_j66872640798743_1_alg».proof.Proof.Gen.KernelIdeal
import proofs.«112451_j66872640798743_1_alg».proof.Proof.Gen.KernelIdeal.Skeleton
import proofs.«112451_j66872640798743_1_alg».proof.Proof.Gen.KernelIdeal.Launch
import proofs.«112451_j66872640798743_1_alg».proof.Proof.Gen.KernelIdeal.Points
import proofs.«112451_j66872640798743_1_alg».proof.Proof.Gen.KernelIdeal.Frame
import proofs.«112451_j66872640798743_1_alg».proof.Proof.Gen.ReferenceIdeal
import proofs.«112451_j66872640798743_1_alg».proof.Proof.Gen.ReferenceIdeal.Run
import proofs.«112451_j66872640798743_1_alg».proof.Proof.Gen.ReferenceIdeal.Read
import proofs.«112451_j66872640798743_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
